-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S2x131072x128 : Shape := ⟨3, ![2, 131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S2x131072x128 : S_.BroadcastsInDim S2x131072x128 (![] : Fin 0 → Fin S2x131072x128.rank)
  reducesTo_S2x131072x128_S_d0_1_2 : S2x131072x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x128 .f32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S131072x128 .f32) (main_arg1 : FVec F S2x131072x128 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S2x131072x128 .f32 := Host.absf main_arg1
  let main_cst_0 : FVec F S_ .f32 := constant S_ .f32 0x7F800000#32
  let main_v5 : FVec F S2x131072x128 .f32 := broadcastInDim S2x131072x128 ![] bcast_S_S2x131072x128 main_cst_0
  let main_v6 : IVec S2x131072x128 1 := cmpf .olt main_v4 main_v5
  let main_c_1 : IVec S_ 1 := constantI S_ 1 1#1
  let main_v7 : IVec S_ 1 := (fun x v => Host.reduce IntOp.andi x v reducesTo_S2x131072x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S131072x128 : Shape := ⟨2, ![131072, 128]⟩
abbrev S2x131072x128 : Shape := ⟨3, ![2, 131072, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S2048x128 : Shape := ⟨2, ![2048, 128]⟩
abbrev S2x2048x128 : Shape := ⟨3, ![2, 2048, 128]⟩
abbrev S1x2048x128 : Shape := ⟨3, ![1, 2048, 128]⟩
abbrev S2048x512 : Shape := ⟨2, ![2048, 512]⟩
abbrev S1x512 : Shape := ⟨2, ![1, 512]⟩

abbrev nBuf : Space → Nat
  | .hbm => 18
  | .vmem => 9
  | .smem => 0
  | _ => 0

abbrev bufTy : (tb : Table) → Fin (tcTables nBuf tb) → BufTy
  | .hbm, ⟨0, _⟩ => ⟨S131072x128, .f32⟩
  | .hbm, ⟨1, _⟩ => ⟨S2x131072x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x512, .f32⟩
  | .hbm, ⟨15, _⟩ => ⟨S128x512, .f32⟩
  | .hbm, ⟨16, _⟩ => ⟨S512, .f32⟩
  | .hbm, ⟨17, _⟩ => ⟨S2x131072x128, .f32⟩
  | .local _ .vmem, ⟨0, _⟩ => ⟨S2048x128, .f32⟩
  | .local _ .vmem, ⟨1, _⟩ => ⟨S2048x128, .f32⟩
  | .local _ .vmem, ⟨2, _⟩ => ⟨S2x2048x128, .f32⟩
  | .local _ .vmem, ⟨3, _⟩ => ⟨S2x2048x128, .f32⟩
  | .local _ .vmem, ⟨4, _⟩ => ⟨S128x512, .f32⟩
  | .local _ .vmem, ⟨5, _⟩ => ⟨S128x512, .f32⟩
  | .local _ .vmem, ⟨6, _⟩ => ⟨S512, .f32⟩
  | .local _ .vmem, ⟨7, _⟩ => ⟨S2x2048x128, .f32⟩
  | .local _ .vmem, ⟨8, _⟩ => ⟨S2x2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  inb_S2x2048x128_S1x2048x128_1_0_0 : ∀ a, (![1, 0, 0] : Fin 3 → Nat) a + S1x2048x128.size a ≤ S2x2048x128.size a
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  shapeCasts_S2048x128_S1x2048x128 : S2048x128.ShapeCasts S1x2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x128.size a ≤ S2x131072x128.size a
  hwx0_1 : ∀ i : grid0.Coords, EltTy.bits .f32 = 32 ∨ (Rect.block (s := S2x131072x128) S2x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x2048x128.size a ≤ S2x131072x128.size a
  hwx0_5 : ∀ i : grid0.Coords, EltTy.bits .f32 = 32 ∨ (Rect.block (s := S2x131072x128) S2x2048x128.size (cc0_transform_5 i) (hinb0_5 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x128 : Shape := ⟨2, ![131072, 128]⟩
abbrev S2x131072x128 : Shape := ⟨3, ![2, 131072, 128]⟩
abbrev S128x128 : Shape := ⟨2, ![128, 128]⟩
abbrev S128 : Shape := ⟨1, ![128]⟩
abbrev S1x131072x128 : Shape := ⟨3, ![1, 131072, 128]⟩
abbrev S128x512 : Shape := ⟨2, ![128, 512]⟩
abbrev S512 : Shape := ⟨1, ![512]⟩
abbrev S131072x512 : Shape := ⟨2, ![131072, 512]⟩
abbrev S1x512 : Shape := ⟨2, ![1, 512]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S2x131072x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S1x131072x128, .f32⟩
  | .hbm, ⟨15, _⟩ => ⟨S131072x128, .f32⟩
  | .hbm, ⟨16, _⟩ => ⟨S1x131072x128, .f32⟩
  | .hbm, ⟨17, _⟩ => ⟨S131072x128, .f32⟩
  | .hbm, ⟨18, _⟩ => ⟨S128x512, .f32⟩
  | .hbm, ⟨19, _⟩ => ⟨S128x512, .f32⟩
  | .hbm, ⟨20, _⟩ => ⟨S512, .f32⟩
  | .hbm, ⟨21, _⟩ => ⟨S131072x512, .f32⟩
  | .hbm, ⟨22, _⟩ => ⟨S131072x512, .f32⟩
  | .hbm, ⟨23, _⟩ => ⟨S131072x512, .f32⟩
  | .hbm, ⟨24, _⟩ => ⟨S1x512, .f32⟩
  | .hbm, ⟨25, _⟩ => ⟨S131072x512, .f32⟩
  | .hbm, ⟨26, _⟩ => ⟨S131072x512, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S131072x128, .f32⟩
  | .hbm, ⟨33, _⟩ => ⟨S_, .f32⟩
  | .hbm, ⟨34, _⟩ => ⟨S131072x128, .f32⟩
  | .hbm, ⟨35, _⟩ => ⟨S131072x128, .f32⟩
  | .hbm, ⟨36, _⟩ => ⟨S_, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S_, .f32⟩
  | .hbm, ⟨42, _⟩ => ⟨S131072x128, .f32⟩
  | .hbm, ⟨43, _⟩ => ⟨S131072x128, .f32⟩
  | .hbm, ⟨44, _⟩ => ⟨S_, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S_, .f32⟩
  | .hbm, ⟨50, _⟩ => ⟨S131072x128, .f32⟩
  | .hbm, ⟨51, _⟩ => ⟨S131072x128, .f32⟩
  | .hbm, ⟨52, _⟩ => ⟨S_, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S131072x128, .f32⟩
  | .hbm, ⟨61, _⟩ => ⟨S1x131072x128, .f32⟩
  | .hbm, ⟨62, _⟩ => ⟨S1x131072x128, .f32⟩
  | .hbm, ⟨63, _⟩ => ⟨S2x131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  slices_S2x131072x128_S1x131072x128_0_0_0 : S2x131072x128.Slices ![0, 0, 0] S1x131072x128
  shapeCasts_S1x131072x128_S131072x128 : S1x131072x128.ShapeCasts S131072x128
  slices_S2x131072x128_S1x131072x128_1_0_0 : S2x131072x128.Slices ![1, 0, 0] S1x131072x128
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  bcast_S131072x128_S1x131072x128_1_2 : S131072x128.BroadcastsInDim S1x131072x128 (![1, 2] : Fin 2 → Fin S1x131072x128.rank)
  concatenates_S1x131072x128_S1x131072x128_S2x131072x128_d0 : Shape.Concatenates [S1x131072x128, S1x131072x128] S2x131072x128 0
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.KData.lean ====
/-
  The frame of the LSTM step's program: what the arrays hold when its one pipelined region is entered, and what the
  region's body leaves in each window's buffer at a grid point.

  Before the region the host concatenates the four gates' input weights, recurrent weights and biases side by side
  into three arrays; no argument array is written by them. The region runs the body at 64 points. At a point the body
  reads its block of the inputs [2048, 128], its block of the state pair [2, 2048, 128], the three concatenated
  arrays whole, and stores the output block [2, 2048, 128] in two planes that tile it: plane 0 (the new hidden state)
  first, plane 1 (the new cell state) after. So the output buffer after the body is the overlay of the two stored
  planes, the later one laid over the earlier.
-/
import proofs.«128606_j72954314489889_1_alg».proof.Proof.Gen.Kernel.Launch
import proofs.«128606_j72954314489889_1_alg».proof.Proof.Gen.Kernel.Skeleton
import proofs.«128606_j72954314489889_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- Core `c`'s TensorCore buffers when the region is entered: after the three host concatenations. -/
abbrev V (c : Dev nD) (b : Ref sig .tc) : Buf (Elt F) ((c : Thread nD τ).loc b) :=
  StableHlo.after hostOps0 (fun b => m (c, b)) b

/-- The host concatenations allocate nothing. -/
theorem hostOps0_fresh : (hostOps0 : List (HloOp τ sig (Elt F))).Forall fun op => op.fresh = ∅ := by
  simp only [List.Forall]; repeat' constructor

/-- The program is the line of host concatenations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- Plane 0 of a state pair's block. -/
abbrev r0_0 : Rect S2x2048x128 := Rect.unit (s := S2x2048x128) ![0, 0, 0] S1x2048x128.size inb_S2x2048x128_S1x2048x128_0_0_0
/-- Plane 1 of a state pair's block. -/
abbrev r0_1 : Rect S2x2048x128 := Rect.unit (s := S2x2048x128) ![1, 0, 0] S1x2048x128.size inb_S2x2048x128_S1x2048x128_1_0_0
/-- The inputs' block, whole. -/
abbrev r0_2 : Rect S2048x128 := Rect.unit (s := S2048x128) ![0, 0] S2048x128.size inb_S2048x128_S2048x128_0_0
/-- A concatenated weight array, whole. -/
abbrev r0_3 : Rect S128x512 := Rect.unit (s := S128x512) ![0, 0] S128x512.size inb_S128x512_S128x512_0_0
/-- The concatenated biases, whole. -/
abbrev r0_4 : Rect S512 := Rect.unit (s := S512) ![0] S512.size inb_S512_S512_0

/-! ## What the body leaves in the output window's buffer -/

/-- The output buffer after the body, from the input windows' blocks: its two stores as pieces, the last first —
    plane 1 (the new cell state), then plane 0 (the new hidden state). -/
def out0_5 (x0 : Vec F S2048x128 .f32) (x1 : Vec F S2x2048x128 .f32) (x2 x3 : Vec F S128x512 .f32) (x4 : Vec F S512 .f32) : Vec F S2x2048x128 .f32 :=
  View.canon [⟨r0_1, k0_pay1 (k0_pay3 (View.ld x1 r0_0) (View.ld x1 r0_1) (View.ld x0 r0_2) (View.ld x2 r0_3) (View.ld x3 r0_3) (View.ld x4 r0_4))⟩,
    ⟨r0_0, k0_pay4 (View.ld x1 r0_0) (View.ld x1 r0_1) (View.ld x0 r0_2) (View.ld x2 r0_3) (View.ld x3 r0_3) (View.ld x4 r0_4)⟩]

/-- The two planes tile the block, so they cover it. -/
theorem cover0_5 (p0 : Vec F S1x2048x128 .f32) (p1 : Vec F S1x2048x128 .f32) (y : S2x2048x128.Idx) :
    ∃ pc ∈ ([⟨r0_1, p0⟩, ⟨r0_0, p1⟩] : List (View.Piece (Elt F) S2x2048x128 .f32)), y ∈ pc.1.set :=
  View.cover_of_tiled [⟨r0_1, p0⟩, ⟨r0_0, p1⟩] S1x2048x128.size (by rfl) y

/-! ## The pipeline's proof data -/

/-- The proof data of the one pipeline on core `c`: the arrays as the region finds them; after the body at point `t`
    each input's buffer at its block and the output's at `out0_5` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

end Cert.Kernel.Fr

end
-- ==== Proof.KFrame.lean ====
/-
  The frame of the LSTM step's program, proved: the program runs — the three host concatenations, then the region's
  body at each of its 64 points — and every argument array ends as it began.

  At a point the body finds in each input window's buffer that window's block (the inputs' and the state pair's are
  fetched at every point; the three concatenated arrays are fetched at the first point only, and at a later point
  their block index has not moved, so the buffer still holds the block). It loads them through whole or plane
  rectangles, stores plane 0 and then plane 1 of the output block, and the two planes tile the block: the output buffer
  ends at the overlay of the two stored planes, whatever it held. The inputs' buffers are left as found.
-/
import proofs.«128606_j72954314489889_1_alg».proof.Proof.KData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in an input window's buffer -/

/-- An input window's current buffer holds its block at every point, fetched there or not, for any proof data whose
    array is the region-entry contents and whose body leaves the block in place: unfetched, the block index has not
    moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the argument
    arrays — the two staged arguments through their windows, the twelve no window stages as the region found them,
    each then as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's triple -/

set_option maxHeartbeats 1000000 in
/-- The body on whole buffers, the inputs' at read contents `x0 … x4` and the output's at anything, runs to the
    continuation holding the inputs' as they were and the output's at `out0_5` of the inputs'. -/
theorem sound_kernel (c : Dev nD) (E : Set ℕ) (i : grid0.Coords) (arg1 : Memref sig .tc .vmem S2048x128 .f32) (harg1 : arg1.IsWhole) (arg2 : Memref sig .tc .vmem S2x2048x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S512 .f32) (harg5 : arg5.IsWhole) (arg6 : Memref sig .tc .vmem S2x2048x128 .f32) (harg6 : arg6.IsWhole)
    (x0 : Vec F S2048x128 .f32) (x1 : Vec F S2x2048x128 .f32) (x2 : Vec F S128x512 .f32) (x3 : Vec F S128x512 .f32) (x4 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _ _)

/-! ## The inputs' buffers at a point -/

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has every array of the pipeline at what the proof
    data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Fr

end
-- ==== Proof.KIData.lean ====
/-
  The frame of the LSTM step's program: what the arrays hold when its one pipelined region is entered, and what the
  region's body leaves in each window's buffer at a grid point.

  Before the region the host concatenates the four gates' input weights, recurrent weights and biases side by side
  into three arrays; no argument array is written by them. The region runs the body at 64 points. At a point the body
  reads its block of the inputs [2048, 128], its block of the state pair [2, 2048, 128], the three concatenated
  arrays whole, and stores the output block [2, 2048, 128] in two planes that tile it: plane 0 (the new hidden state)
  first, plane 1 (the new cell state) after. So the output buffer after the body is the overlay of the two stored
  planes, the later one laid over the earlier.
-/
import proofs.«128606_j72954314489889_1_alg».proof.Proof.Gen.KernelIdeal.Launch
import proofs.«128606_j72954314489889_1_alg».proof.Proof.Gen.KernelIdeal.Skeleton
import proofs.«128606_j72954314489889_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- Core `c`'s TensorCore buffers when the region is entered: after the three host concatenations. -/
abbrev V (c : Dev nD) (b : Ref sig .tc) : Buf (Elt F) ((c : Thread nD τ).loc b) :=
  StableHlo.after hostOps0 (fun b => m (c, b)) b

/-- The host concatenations allocate nothing. -/
theorem hostOps0_fresh : (hostOps0 : List (HloOp τ sig (Elt F))).Forall fun op => op.fresh = ∅ := by
  simp only [List.Forall]; repeat' constructor

/-- The program is the line of host concatenations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- Plane 0 of a state pair's block. -/
abbrev r0_0 : Rect S2x2048x128 := Rect.unit (s := S2x2048x128) ![0, 0, 0] S1x2048x128.size inb_S2x2048x128_S1x2048x128_0_0_0
/-- Plane 1 of a state pair's block. -/
abbrev r0_1 : Rect S2x2048x128 := Rect.unit (s := S2x2048x128) ![1, 0, 0] S1x2048x128.size inb_S2x2048x128_S1x2048x128_1_0_0
/-- The inputs' block, whole. -/
abbrev r0_2 : Rect S2048x128 := Rect.unit (s := S2048x128) ![0, 0] S2048x128.size inb_S2048x128_S2048x128_0_0
/-- A concatenated weight array, whole. -/
abbrev r0_3 : Rect S128x512 := Rect.unit (s := S128x512) ![0, 0] S128x512.size inb_S128x512_S128x512_0_0
/-- The concatenated biases, whole. -/
abbrev r0_4 : Rect S512 := Rect.unit (s := S512) ![0] S512.size inb_S512_S512_0

/-! ## What the body leaves in the output window's buffer -/

/-- The output buffer after the body, from the input windows' blocks: its two stores as pieces, the last first —
    plane 1 (the new cell state), then plane 0 (the new hidden state). -/
def out0_5 (x0 : Vec F S2048x128 .f32) (x1 : Vec F S2x2048x128 .f32) (x2 x3 : Vec F S128x512 .f32) (x4 : Vec F S512 .f32) : Vec F S2x2048x128 .f32 :=
  View.canon [⟨r0_1, k0_pay1 (k0_pay3 (View.ld x1 r0_0) (View.ld x1 r0_1) (View.ld x0 r0_2) (View.ld x2 r0_3) (View.ld x3 r0_3) (View.ld x4 r0_4))⟩,
    ⟨r0_0, k0_pay4 (View.ld x1 r0_0) (View.ld x1 r0_1) (View.ld x0 r0_2) (View.ld x2 r0_3) (View.ld x3 r0_3) (View.ld x4 r0_4)⟩]

/-- The two planes tile the block, so they cover it. -/
theorem cover0_5 (p0 : Vec F S1x2048x128 .f32) (p1 : Vec F S1x2048x128 .f32) (y : S2x2048x128.Idx) :
    ∃ pc ∈ ([⟨r0_1, p0⟩, ⟨r0_0, p1⟩] : List (View.Piece (Elt F) S2x2048x128 .f32)), y ∈ pc.1.set :=
  View.cover_of_tiled [⟨r0_1, p0⟩, ⟨r0_0, p1⟩] S1x2048x128.size (by rfl) y

/-! ## The pipeline's proof data -/

/-- The proof data of the one pipeline on core `c`: the arrays as the region finds them; after the body at point `t`
    each input's buffer at its block and the output's at `out0_5` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

end Cert.KernelIdeal.Fr

end
-- ==== Proof.KIFrame.lean ====
/-
  The frame of the LSTM step's program, proved: the program runs — the three host concatenations, then the region's
  body at each of its 64 points — and every argument array ends as it began.

  At a point the body finds in each input window's buffer that window's block (the inputs' and the state pair's are
  fetched at every point; the three concatenated arrays are fetched at the first point only, and at a later point
  their block index has not moved, so the buffer still holds the block). It loads them through whole or plane
  rectangles, stores plane 0 and then plane 1 of the output block, and the two planes tile the block: the output buffer
  ends at the overlay of the two stored planes, whatever it held. The inputs' buffers are left as found.
-/
import proofs.«128606_j72954314489889_1_alg».proof.Proof.KIData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in an input window's buffer -/

/-- An input window's current buffer holds its block at every point, fetched there or not, for any proof data whose
    array is the region-entry contents and whose body leaves the block in place: unfetched, the block index has not
    moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the argument
    arrays — the two staged arguments through their windows, the twelve no window stages as the region found them,
    each then as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's triple -/

set_option maxHeartbeats 1000000 in
/-- The body on whole buffers, the inputs' at read contents `x0 … x4` and the output's at anything, runs to the
    continuation holding the inputs' as they were and the output's at `out0_5` of the inputs'. -/
theorem sound_kernel (c : Dev nD) (E : Set ℕ) (i : grid0.Coords) (arg1 : Memref sig .tc .vmem S2048x128 .f32) (harg1 : arg1.IsWhole) (arg2 : Memref sig .tc .vmem S2x2048x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S512 .f32) (harg5 : arg5.IsWhole) (arg6 : Memref sig .tc .vmem S2x2048x128 .f32) (harg6 : arg6.IsWhole)
    (x0 : Vec F S2048x128 .f32) (x1 : Vec F S2x2048x128 .f32) (x2 : Vec F S128x512 .f32) (x3 : Vec F S128x512 .f32) (x4 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _ _)

/-! ## The inputs' buffers at a point -/

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has every array of the pipeline at what the proof
    data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Fr

end
-- ==== Proof.Spec.lean ====
/-
  One step of an LSTM cell over 131072 rows, as ONE function of the arrays, entry by entry on the extended reals.

  The four gates share two matrix products: with W, U of shape [128, 512] (the input and the recurrent weights of the
  input, forget, output and candidate gates side by side, 128 columns each) and b of length 512, the pre-activation of
  column n at row r is
      gate r n = ∑ κ < 128, x[r, κ] · W[κ, n]  +  ∑ κ < 128, h₀[r, κ] · U[κ, n]  +  b[n],
  where h₀ = hm[0] is the previous hidden state and c₀ = hm[1] the previous cell state. With σ the logistic function,
      cell   r j = σ (gate r (128 + j)) · c₀[r, j] + σ (gate r j) · tanh (gate r (384 + j)),
      hidden r j = σ (gate r (256 + j)) · tanh (cell r j),
  and the result stacks the new hidden state (plane 0) on the new cell state (plane 1).
-/
import Idealize.ShloMosaic.Lib.ValueIdx
import Idealize.ShloMosaic.PureOps.Ideal

noncomputable section

namespace Cert.Spec

open Idealize.ShloMosaic Idealize.ShloMosaic.ValueIdx

/-- The rows' inputs, [131072, 128]. -/
abbrev SX : Shape := ⟨2, ![131072, 128]⟩
/-- A pair of states, [2, 131072, 128]: plane 0 hidden, plane 1 cell. -/
abbrev SHM : Shape := ⟨3, ![2, 131072, 128]⟩
/-- Four gates' weights side by side, [128, 512]. -/
abbrev SW : Shape := ⟨2, ![128, 512]⟩
/-- Four gates' biases end to end, [512]. -/
abbrev SB : Shape := ⟨1, ![512]⟩

section

variable (x : FVec Ideal SX .f32) (hm : FVec Ideal SHM .f32) (W U : FVec Ideal SW .f32) (b : FVec Ideal SB .f32)

/-- The pre-activation of gate column `n` at row `r`. -/
def gate (r : Fin 131072) (n : Fin 512) : EReal :=
  ((∑ κ : Fin 128, x (ix2 r κ) * W (ix2 κ n)) + ∑ κ : Fin 128, hm (ix3 (0 : Fin 2) r κ) * U (ix2 κ n)) + b (ix1 n)

/-- Column `j` of gate number `g` (input 0, forget 1, output 2, candidate 3) among the 512. -/
def col (g : Fin 4) (j : Fin 128) : Fin 512 := ⟨128 * g.val + j.val, by omega⟩

/-- The new cell state. -/
def cell (r : Fin 131072) (j : Fin 128) : EReal :=
  Ideal.logistic (gate x hm W U b r (col 1 j)) * hm (ix3 (1 : Fin 2) r j)
    + Ideal.logistic (gate x hm W U b r (col 0 j)) * Ideal.tanh (gate x hm W U b r (col 3 j))

/-- The new hidden state. -/
def hidden (r : Fin 131072) (j : Fin 128) : EReal :=
  Ideal.logistic (gate x hm W U b r (col 2 j)) * Ideal.tanh (cell x hm W U b r j)

/-- The stacked result: plane 0 the new hidden state, plane 1 the new cell state. -/
def G : FVec Ideal SHM .f32 := fun i =>
  if (i 0).val = 0 then hidden x hm W U b ⟨(i 1).val, (i 1).isLt⟩ ⟨(i 2).val, (i 2).isLt⟩
  else cell x hm W U b ⟨(i 1).val, (i 1).isLt⟩ ⟨(i 2).val, (i 2).isLt⟩

theorem G_hidden (r : Fin 131072) (j : Fin 128) : G x hm W U b (ix3 (0 : Fin 2) r j) = hidden x hm W U b r j := rfl

theorem G_cell (r : Fin 131072) (j : Fin 128) : G x hm W U b (ix3 (1 : Fin 2) r j) = cell x hm W U b r j := rfl

end

end Cert.Spec

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KIPay.lean ====
/-
  The arithmetic of one row block of the cell, entry by entry on the extended reals.

  A block holds 2048 rows. From the block of inputs `xb` [2048, 128], the previous hidden and cell planes `hb`, `cb`
  [1, 2048, 128], the weights `W`, `U` [128, 512] and the bias `b` [512], the body forms the pre-activations
      pre (p, n) = ∑ κ, xb (p, κ) · W (κ, n) + ∑ κ, hb (0, p, κ) · U (κ, n) + b n
  (two matrix products into zero accumulators, the narrowing of their operands being the identity here), cuts them into
  four column bands of width 128, and sets
      cell (p, j)   = σ (pre (p, 128 + j)) · cb (0, p, j) + σ (pre (p, j)) · tanh (pre (p, 384 + j)),
      hidden (p, j) = σ (pre (p, 256 + j)) · tanh (cell (p, j)).
-/
import proofs.«128606_j72954314489889_1_alg».proof.Proof.Gen.KernelIdeal.Skeleton
import proofs.«128606_j72954314489889_1_alg».proof.Proof.Spec
import proofs.«128606_j72954314489889_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The body's products are plain ones: rows from the left operand, columns from the right, axis 1 against axis 0. -/
theorem plain : Cert.PlainDot.Plain dot_S2048x128_S128x512_S2048x512_1_0_0_1_n_n := ⟨rfl, rfl, rfl, rfl, rfl, rfl⟩

variable (hb cb : Vec Ideal S1x2048x128 .f32) (xb : Vec Ideal S2048x128 .f32) (W U : Vec Ideal S128x512 .f32)
  (b : Vec Ideal S512 .f32)

/-- The pre-activation of column `n` at row `p` of the block. -/
def pre (p : Fin 2048) (n : Fin 512) : EReal :=
  ((∑ κ : Fin 128, xb (ix2 p κ) * W (ix2 κ n)) + ∑ κ : Fin 128, hb (ix3 (0 : Fin 1) p κ) * U (ix2 κ n)) + b (ix1 n)

/-- The sum of the two products and the bias row, at an entry. -/
theorem pay2_apply (p : Fin 2048) (n : Fin 512) :
    k0_pay2 (F := Ideal) hb xb W U b (ix2 p n) = pre hb xb W U b p n := by
  unfold k0_pay2 pre
  simp only [shapeCast_self]
  rw [addf_apply, addf_apply,
    Cert.PlainDot.matmul_zero_apply plain rfl rfl, Cert.PlainDot.matmul_zero_apply plain rfl rfl,
    broadcastTo_1b_ab_apply, shapeCast_a_1a_apply]
  simp only [truncf_apply, shapeCast_1ab_ab_apply]

/-- The new cell state of the block at row `p`, column `j`. -/
def cellB (p : Fin 2048) (j : Fin 128) : EReal :=
  Ideal.logistic (pre hb xb W U b p (Cert.Spec.col 1 j)) * cb (ix3 (0 : Fin 1) p j)
    + Ideal.logistic (pre hb xb W U b p (Cert.Spec.col 0 j)) * Ideal.tanh (pre hb xb W U b p (Cert.Spec.col 3 j))

/-- The new hidden state of the block at row `p`, column `j`. -/
def hiddenB (p : Fin 2048) (j : Fin 128) : EReal :=
  Ideal.logistic (pre hb xb W U b p (Cert.Spec.col 2 j)) * Ideal.tanh (cellB hb cb xb W U b p j)

/-- The forget gate times the old cell plus the input gate times the candidate, at an entry: each band is the
    pre-activations cut from its first column on. -/
theorem pay3_apply (p : Fin 2048) (j : Fin 128) :
    k0_pay3 (F := Ideal) hb cb xb W U b (ix2 p j) = cellB hb cb xb W U b p j := by
  unfold k0_pay3 cellB
  rw [addf_apply, mulf_apply, mulf_apply]
  show Ideal.logistic (extractStridedSlice S2048x128 ![0, 128] (k0_pay2 (F := Ideal) hb xb W U b) slices_S2048x512_o0_128_S2048x128 (ix2 p j))
      * shapeCast S2048x128 cb shapeCasts_S1x2048x128_S2048x128 (ix2 p j)
    + Ideal.logistic (extractStridedSlice S2048x128 ![0, 0] (k0_pay2 (F := Ideal) hb xb W U b) slices_S2048x512_o0_0_S2048x128 (ix2 p j))
      * Ideal.tanh (extractStridedSlice S2048x128 ![0, 384] (k0_pay2 (F := Ideal) hb xb W U b) slices_S2048x512_o0_384_S2048x128 (ix2 p j)) = _
  rw [slice2_axis1_apply 128 _ _ p j (Cert.Spec.col 1 j) rfl, slice2_axis1_apply 0 _ _ p j (Cert.Spec.col 0 j) (by simp [Cert.Spec.col]),
    slice2_axis1_apply 384 _ _ p j (Cert.Spec.col 3 j) rfl, shapeCast_1ab_ab_apply, pay2_apply, pay2_apply, pay2_apply]

/-- The output gate times the squashed new cell, with the unit axis put in front, at an entry. -/
theorem pay4_apply (u : Fin 1) (p : Fin 2048) (j : Fin 128) :
    k0_pay4 (F := Ideal) hb cb xb W U b (ix3 u p j) = hiddenB hb cb xb W U b p j := by
  unfold k0_pay4 hiddenB
  rw [shapeCast_ab_1ab_apply, mulf_apply]
  show Ideal.logistic (extractStridedSlice S2048x128 ![0, 256] (k0_pay2 (F := Ideal) hb xb W U b) slices_S2048x512_o0_256_S2048x128 (ix2 p j))
      * Ideal.tanh (k0_pay3 (F := Ideal) hb cb xb W U b (ix2 p j)) = _
  rw [slice2_axis1_apply 256 _ _ p j (Cert.Spec.col 2 j) rfl, pay2_apply, pay3_apply]

/-- The cell plane with the unit axis put in front, at an entry. -/
theorem pay1_apply (v : FVec Ideal S2048x128 .f32) (u : Fin 1) (p : Fin 2048) (j : Fin 128) :
    k0_pay1 (F := Ideal) v (ix3 u p j) = v (ix2 p j) := by
  unfold k0_pay1
  rw [shapeCast_ab_1ab_apply]

end Cert.KernelIdeal.Pay

end
-- ==== Proof.KIBlock.lean ====
/-
  What one grid point leaves in the output block, as ONE function of the block index.

  The body writes the block [2, 2048, 128] in two planes: plane 0 takes the new hidden state and plane 1 the new cell
  state of the 2048 rows at hand, each computed from the blocks of the inputs (plane 0 of the state block is the previous
  hidden state, plane 1 the previous cell state). The two planes tile the block, so whatever order they are written in,
  the block at (s, p, j) is the hidden state for s = 0 and the cell state for s = 1.
-/
import proofs.«128606_j72954314489889_1_alg».proof.Proof.KIPay
import Idealize.ShloMosaic.Lib.Pipeline.Value
import Idealize.ShloMosaic.Lib.Writes

set_option maxRecDepth 16384

noncomputable section

namespace Cert.KernelIdeal.Blk

open Idealize.ShloMosaic Idealize.ShloMosaic.ValueIdx Cert.KernelIdeal Cert.KernelIdeal.Gen Cert.KernelIdeal.Pay

/-- Plane 0 of a [2, 2048, 128] block. -/
abbrev rA : Rect S2x2048x128 := Rect.unit (s := S2x2048x128) ![0, 0, 0] S1x2048x128.size inb_S2x2048x128_S1x2048x128_0_0_0
/-- Plane 1 of a [2, 2048, 128] block. -/
abbrev rB : Rect S2x2048x128 := Rect.unit (s := S2x2048x128) ![1, 0, 0] S1x2048x128.size inb_S2x2048x128_S1x2048x128_1_0_0
/-- A whole [2048, 128] block. -/
abbrev rX : Rect S2048x128 := Rect.unit (s := S2048x128) ![0, 0] S2048x128.size inb_S2048x128_S2048x128_0_0
/-- A whole [128, 512] array. -/
abbrev rW : Rect S128x512 := Rect.unit (s := S128x512) ![0, 0] S128x512.size inb_S128x512_S128x512_0_0
/-- A whole [512] array. -/
abbrev rb : Rect S512 := Rect.unit (s := S512) ![0] S512.size inb_S512_S512_0

theorem hz2 : (![0, 0] : Fin 2 → Nat) = fun _ => 0 := funext fun a => by fin_cases a <;> rfl
theorem hz1 : (![0] : Fin 1 → Nat) = fun _ => 0 := funext fun a => by fin_cases a; rfl

variable (x0 : Vec Ideal S2048x128 .f32) (x1 : Vec Ideal S2x2048x128 .f32) (x2 x3 : Vec Ideal S128x512 .f32)
  (x4 : Vec Ideal S512 .f32)

/-- Plane 0 of the state block at (0, p, j) is the block at (0, p, j). -/
theorem ldA_apply (p : Fin 2048) (j : Fin 128) : View.ld x1 rA (ix3 (0 : Fin 1) p j) = x1 (ix3 (0 : Fin 2) p j) := by
  show x1 (rA.emb (ix3 (0 : Fin 1) p j)) = _
  congr 1; funext a; apply Fin.ext
  match a with
  | ⟨0, _⟩ => rfl
  | ⟨1, _⟩ => show 0 + 1 * p.val = p.val; omega
  | ⟨2, _⟩ => show 0 + 1 * j.val = j.val; omega

/-- Plane 1 of the state block at (0, p, j) is the block at (1, p, j). -/
theorem ldB_apply (p : Fin 2048) (j : Fin 128) : View.ld x1 rB (ix3 (0 : Fin 1) p j) = x1 (ix3 (1 : Fin 2) p j) := by
  show x1 (rB.emb (ix3 (0 : Fin 1) p j)) = _
  congr 1; funext a; apply Fin.ext
  match a with
  | ⟨0, _⟩ => rfl
  | ⟨1, _⟩ => show 0 + 1 * p.val = p.val; omega
  | ⟨2, _⟩ => show 0 + 1 * j.val = j.val; omega

/-- The block one grid point leaves: hidden state on plane 0, cell state on plane 1. -/
def blockG : Vec Ideal S2x2048x128 .f32 := fun y =>
  if (y 0).val = 0 then hiddenB (View.ld x1 rA) (View.ld x1 rB) x0 x2 x3 x4 ⟨(y 1).val, (y 1).isLt⟩ ⟨(y 2).val, (y 2).isLt⟩
  else cellB (View.ld x1 rA) (View.ld x1 rB) x0 x2 x3 x4 ⟨(y 1).val, (y 1).isLt⟩ ⟨(y 2).val, (y 2).isLt⟩

/-- On plane 0 the block holds the hidden state. -/
theorem blockG_A (u : Fin 1) (p : Fin 2048) (j : Fin 128) :
    blockG x0 x1 x2 x3 x4 (rA.emb (ix3 u p j)) = hiddenB (View.ld x1 rA) (View.ld x1 rB) x0 x2 x3 x4 p j := by
  have hu : u.val = 0 := by omega
  unfold blockG
  rw [if_pos (show ((rA.emb (ix3 u p j)) 0).val = 0 by show 0 + 1 * u.val = 0; omega)]
  congr 1
  · exact Fin.ext (by show 0 + 1 * p.val = p.val; omega)
  · exact Fin.ext (by show 0 + 1 * j.val = j.val; omega)

/-- On plane 1 the block holds the cell state. -/
theorem blockG_B (u : Fin 1) (p : Fin 2048) (j : Fin 128) :
    blockG x0 x1 x2 x3 x4 (rB.emb (ix3 u p j)) = cellB (View.ld x1 rA) (View.ld x1 rB) x0 x2 x3 x4 p j := by
  have hu : u.val = 0 := by omega
  unfold blockG
  rw [if_neg (show ¬ ((rB.emb (ix3 u p j)) 0).val = 0 by show ¬ 1 + 1 * u.val = 0; omega)]
  congr 1
  · exact Fin.ext (by show 0 + 1 * p.val = p.val; omega)
  · exact Fin.ext (by show 0 + 1 * j.val = j.val; omega)

/-- The two planes tile the block. -/
theorem cover (p0 p1 : Vec Ideal S1x2048x128 .f32) (y : S2x2048x128.Idx) :
    ∃ pc ∈ ([⟨rB, p0⟩, ⟨rA, p1⟩] : List (View.Piece (Elt Ideal) S2x2048x128 .f32)), y ∈ pc.1.set :=
  View.cover_of_tiled [⟨rB, p0⟩, ⟨rA, p1⟩] S1x2048x128.size (by rfl) y

/-- The two stores, the later first, leave `blockG`. -/
theorem canon_eq :
    View.canon [(⟨rB, k0_pay1 (F := Ideal) (k0_pay3 (View.ld x1 rA) (View.ld x1 rB) (View.ld x0 rX) (View.ld x2 rW) (View.ld x3 rW) (View.ld x4 rb))⟩ : View.Piece (Elt Ideal) S2x2048x128 .f32),
      ⟨rA, k0_pay4 (F := Ideal) (View.ld x1 rA) (View.ld x1 rB) (View.ld x0 rX) (View.ld x2 rW) (View.ld x3 rW) (View.ld x4 rb)⟩]
      = blockG x0 x1 x2 x3 x4 := by
  funext y
  simp only [View.ld_unit_zero (S := S2048x128) hz2, View.ld_unit_zero (S := S128x512) hz2, View.ld_unit_zero (S := S512) hz1]
  refine View.canon_apply_of_pieces (blockG x0 x1 x2 x3 x4) _ ?_ y (cover _ _ y)
  intro pc hpc
  simp only [List.mem_cons, List.not_mem_nil, or_false] at hpc
  rcases hpc with rfl | rfl
  · intro x
    obtain ⟨u, p, j, rfl⟩ : ∃ (u : Fin 1) (p : Fin 2048) (j : Fin 128), x = ix3 u p j := ⟨x 0, x 1, x 2, eq_ix3 x⟩
    dsimp only
    rw [pay1_apply, pay3_apply, blockG_B]
  · intro x
    obtain ⟨u, p, j, rfl⟩ : ∃ (u : Fin 1) (p : Fin 2048) (j : Fin 128), x = ix3 u p j := ⟨x 0, x 1, x 2, eq_ix3 x⟩
    dsimp only
    rw [pay4_apply, blockG_A]

/-- The block at (s, p, j), by plane. -/
theorem blockG_ix3 (s : Fin 2) (p : Fin 2048) (j : Fin 128) :
    blockG x0 x1 x2 x3 x4 (ix3 s p j)
      = if s.val = 0 then hiddenB (View.ld x1 rA) (View.ld x1 rB) x0 x2 x3 x4 p j
        else cellB (View.ld x1 rA) (View.ld x1 rB) x0 x2 x3 x4 p j := rfl

/-- Row `p` of the block of grid point `T` is row `2048 T + p` of the arrays. -/
def row (T : Fin 64) (p : Fin 2048) : Fin 131072 := ⟨T.val * 2048 + p.val, by omega⟩

/-- THE BLOCK IS THE SPECIFICATION'S: when the inputs' block and the state block hold rows `2048 T + p` of the arrays
    `X` and `HM`, the block the point leaves at (s, p, j) is the specification at (s, 2048 T + p, j) — the pre-activations
    of a row use that row of the inputs and of the previous hidden state only, the gates that row's pre-activations, and
    the cell update that row's previous cell state. -/
theorem blockG_eq_G (X : FVec Ideal Cert.Spec.SX .f32) (HM : FVec Ideal Cert.Spec.SHM .f32) (T : Fin 64)
    (h0 : ∀ (p : Fin 2048) (κ : Fin 128), x0 (ix2 p κ) = X (ix2 (row T p) κ))
    (h1 : ∀ (s : Fin 2) (p : Fin 2048) (κ : Fin 128), x1 (ix3 s p κ) = HM (ix3 s (row T p) κ))
    (s : Fin 2) (p : Fin 2048) (j : Fin 128) :
    blockG x0 x1 x2 x3 x4 (ix3 s p j) = Cert.Spec.G X HM x2 x3 x4 (ix3 s (row T p) j) := by
  have hpre : ∀ n : Fin 512, pre (View.ld x1 rA) x0 x2 x3 x4 p n = Cert.Spec.gate X HM x2 x3 x4 (row T p) n := by
    intro n
    unfold pre Cert.Spec.gate
    congr 1; congr 1
    · exact Finset.sum_congr rfl fun κ _ => by rw [h0]
    · exact Finset.sum_congr rfl fun κ _ => by rw [ldA_apply, h1]
  have hcell : cellB (View.ld x1 rA) (View.ld x1 rB) x0 x2 x3 x4 p j = Cert.Spec.cell X HM x2 x3 x4 (row T p) j := by
    unfold cellB Cert.Spec.cell
    rw [hpre, hpre, hpre, ldB_apply, h1]
  rw [blockG_ix3]
  rcases s with ⟨_ | _ | n, hs⟩
  · rw [if_pos rfl]
    show _ = Cert.Spec.hidden X HM x2 x3 x4 (row T p) j
    unfold hiddenB Cert.Spec.hidden
    rw [hcell, hpre]
  · rw [if_neg (Nat.succ_ne_zero 0)]
    exact hcell
  · exact absurd hs (by omega)

end Cert.KernelIdeal.Blk

end
-- ==== Proof.KIValue.lean ====
/-
  The result array of the LSTM step's program, as the specification of the argument arrays.

  The grid's point t owns rows 2048 t … 2048 t + 2047: it reads those rows of the inputs and of both planes of the
  state pair, the concatenated weights and biases whole, and writes those rows of both planes of the result. What it
  writes is the specification on those rows (a row's result uses that row only), the 64 points' blocks tile the
  result, so the result array after the run IS the specification.
-/
import proofs.«128606_j72954314489889_1_alg».proof.Proof.KIFrame
import proofs.«128606_j72954314489889_1_alg».proof.Proof.KIBlock
import Idealize.ShloMosaic.Lib.Pipeline.Value

set_option maxRecDepth 16384

noncomputable section

namespace Cert.KernelIdeal.Val

open Cert.KernelIdeal Cert.KernelIdeal.Gen Cert.KernelIdeal.Fr Cert.KernelIdeal.Blk
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification of the arrays the region finds: the arguments, and the three concatenations. -/
abbrev result (c : Dev nD) : Vec Ideal S2x131072x128 .f32 :=
  Cert.Spec.G (m ((c : Thread nD τ).loc main_arg0)) (m ((c : Thread nD τ).loc main_arg1))
    (V m c main_v0) (V m c main_v1) (V m c main_v2)

/-- The index maps over the grid: the row-blocked windows move with the point, the others stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = t.val ∧ win0_5.index t (2 : Fin 3) = 0 :=
  (by decide +kernel : ∀ t : Fin grid0.N, _)

/-- Every row block is some point's. -/
theorem idx_onto : ∀ q : Fin 64, ∃ t : Fin cfg0.N, win0_5.index t = ![0, q.val, 0] :=
  (by decide +kernel : ∀ q : Fin 64, ∃ t : Fin grid0.N, win0_5.index t = ![0, q.val, 0])

/-- A point as a number below 64. -/
def pt (t : Fin cfg0.N) : Fin 64 := ⟨t.val, lt_of_lt_of_eq t.isLt N_0⟩

/-- The inputs' block at point `t` holds rows 2048 t + p of the inputs. -/
theorem blk0 (c : Dev nD) (t : Fin cfg0.N) (p : Fin 2048) (κ : Fin 128) :
    iblk m c 0 t (ix2 p κ) = m ((c : Thread nD τ).loc main_arg0) (ix2 (row (pt t) p) κ) := by
  unfold iblk
  rw [View.read_apply]
  show V m c main_arg0 (((cfg0.win 0).blk t).view.emb (ix2 p κ)) = _
  rw [V_main_arg0]
  congr 1; funext a; apply Fin.ext
  obtain ⟨e0, e1, -⟩ := idx_facts t
  match a with
  | ⟨0, _⟩ => show win0_0.index t (0 : Fin 2) * 2048 + 1 * p.val = t.val * 2048 + p.val; rw [e0]; omega
  | ⟨1, _⟩ => show win0_0.index t (1 : Fin 2) * 128 + 1 * κ.val = κ.val; rw [e1]; omega

/-- The state block at point `t` holds rows 2048 t + p of both planes of the state pair. -/
theorem blk1 (c : Dev nD) (t : Fin cfg0.N) (s : Fin 2) (p : Fin 2048) (κ : Fin 128) :
    iblk m c 1 t (ix3 s p κ) = m ((c : Thread nD τ).loc main_arg1) (ix3 s (row (pt t) p) κ) := by
  unfold iblk
  rw [View.read_apply]
  show V m c main_arg1 (((cfg0.win 1).blk t).view.emb (ix3 s p κ)) = _
  rw [V_main_arg1]
  congr 1; funext a; apply Fin.ext
  obtain ⟨-, -, e0, e1, e2, -⟩ := idx_facts t
  match a with
  | ⟨0, _⟩ => show win0_1.index t (0 : Fin 3) * 2 + 1 * s.val = s.val; rw [e0]; omega
  | ⟨1, _⟩ => show win0_1.index t (1 : Fin 3) * 2048 + 1 * p.val = t.val * 2048 + p.val; rw [e1]; omega
  | ⟨2, _⟩ => show win0_1.index t (2 : Fin 3) * 128 + 1 * κ.val = κ.val; rw [e2]; omega

/-- The input weights' window is the whole concatenation at every point. -/
theorem blk2 (c : Dev nD) (t : Fin cfg0.N) : iblk m c 2 t = V m c main_v0 := by
  funext y
  unfold iblk
  rw [View.read_apply]
  show V m c main_v0 (((cfg0.win 2).blk t).view.emb y) = _
  congr 1; funext a; apply Fin.ext
  obtain ⟨-, -, -, -, -, e0, e1, -⟩ := idx_facts t
  match a with
  | ⟨0, _⟩ => show win0_2.index t (0 : Fin 2) * 128 + 1 * (y 0).val = (y 0).val; rw [e0]; omega
  | ⟨1, _⟩ => show win0_2.index t (1 : Fin 2) * 512 + 1 * (y 1).val = (y 1).val; rw [e1]; omega

/-- The recurrent weights' window likewise. -/
theorem blk3 (c : Dev nD) (t : Fin cfg0.N) : iblk m c 3 t = V m c main_v1 := by
  funext y
  unfold iblk
  rw [View.read_apply]
  show V m c main_v1 (((cfg0.win 3).blk t).view.emb y) = _
  congr 1; funext a; apply Fin.ext
  obtain ⟨-, -, -, -, -, -, -, e0, e1, -⟩ := idx_facts t
  match a with
  | ⟨0, _⟩ => show win0_3.index t (0 : Fin 2) * 128 + 1 * (y 0).val = (y 0).val; rw [e0]; omega
  | ⟨1, _⟩ => show win0_3.index t (1 : Fin 2) * 512 + 1 * (y 1).val = (y 1).val; rw [e1]; omega

/-- The biases' window likewise. -/
theorem blk4 (c : Dev nD) (t : Fin cfg0.N) : iblk m c 4 t = V m c main_v2 := by
  funext y
  unfold iblk
  rw [View.read_apply]
  show V m c main_v2 (((cfg0.win 4).blk t).view.emb y) = _
  congr 1; funext a; apply Fin.ext
  obtain ⟨-, -, -, -, -, -, -, -, -, e0, -⟩ := idx_facts t
  match a with
  | ⟨0, _⟩ => show win0_4.index t (0 : Fin 1) * 512 + 1 * (y 0).val = (y 0).val; rw [e0]; omega

/-- WHAT POINT `t` WRITES BACK is block `t` of the specification. -/
theorem flushed5_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5, blk2, blk3, blk4]
  unfold out0_5
  rw [canon_eq]
  funext y
  obtain ⟨s, p, j, rfl⟩ : ∃ (s : Fin 2) (p : Fin 2048) (j : Fin 128), y = ix3 s p j := ⟨y 0, y 1, y 2, eq_ix3 y⟩
  rw [View.read_apply]
  refine (blockG_eq_G _ _ _ _ _ (m ((c : Thread nD τ).loc main_arg0)) (m ((c : Thread nD τ).loc main_arg1)) (pt t)
    (blk0 m c t) (blk1 m c t) s p j).trans ?_
  show result m c (ix3 s (row (pt t) p) j) = result m c (((cfg0.win 5).blk t).view.emb (ix3 s p j))
  congr 1; funext a; apply Fin.ext
  obtain ⟨-, -, -, -, -, -, -, -, -, -, e0, e1, e2⟩ := idx_facts t
  match a with
  | ⟨0, _⟩ => show s.val = win0_5.index t (0 : Fin 3) * 2 + 1 * s.val; rw [e0]; omega
  | ⟨1, _⟩ => show t.val * 2048 + p.val = win0_5.index t (1 : Fin 3) * 2048 + 1 * p.val; rw [e1]; omega
  | ⟨2, _⟩ => show j.val = win0_5.index t (2 : Fin 3) * 128 + 1 * j.val; rw [e2]; omega

/-- An index of the result is in point `t`'s block iff each coordinate is in the block's range on its axis. -/
theorem mem_blk5 (t : Fin cfg0.N) (i : S2x131072x128.Idx) :
    i ∈ ((cfg0.win 5).blk t).view.set ↔ ∀ a : Fin 3, win0_5.index t a * S2x2048x128.size a ≤ (i a).val ∧ (i a).val < win0_5.index t a * S2x2048x128.size a + S2x2048x128.size a := by
  show i ∈ ((View.whole main_v3).slice (win0_5.rect t)).set ↔ _
  rw [View.set_slice_whole, Rect.mem_set_unit]
  exact Iff.rfl

/-- The 64 row blocks cover the result: row r lies in the block of point r / 2048. -/
theorem cover5 (i : S2x131072x128.Idx) :
    ∃ t : Fin cfg0.N, (cfg0.win 5).flush t = true ∧ i ∈ ((cfg0.win 5).blk t).view.set := by
  have hi0 : (i 0).val < 2 := (i 0).isLt
  have hi1 : (i 1).val < 131072 := (i 1).isLt
  have hi2 : (i 2).val < 128 := (i 2).isLt
  obtain ⟨t, ht⟩ := idx_onto ⟨(i 1).val / 2048, by omega⟩
  have q0 : win0_5.index t (0 : Fin 3) = 0 := congrFun ht 0
  have q1 : win0_5.index t (1 : Fin 3) = (i 1).val / 2048 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 2 ≤ (i 0).val ∧ (i 0).val < win0_5.index t (0 : Fin 3) * 2 + 2; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 128 ≤ (i 2).val ∧ (i 2).val < win0_5.index t (2 : Fin 3) * 128 + 128; omega

/-- THE RESULT ARRAY after the run is the specification. -/
theorem final5 (c : Dev nD) : (dats m 0 c).arrAt 5 cfg0.N = result m c :=
  (dats m 0 c).arrAt_eq_of_cover 5 (result m c) (fun t _ => flushed5_eq m c t) (cover5)

/-- The run: the result array at the specification, the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.Val

end
-- ==== Proof.KIHost.lean ====
/-
  What the three host concatenations leave: the four gates' input weights side by side, their recurrent weights side
  by side, and their biases end to end, each of the argument arrays as launched (no concatenation reads another's
  result).
-/
import proofs.«128606_j72954314489889_1_alg».proof.Proof.KIData
import Idealize.ShloMosaic.Lib.StableHlo.Run

noncomputable section

namespace Cert.KernelIdeal.Host

open Cert.KernelIdeal Cert.KernelIdeal.Gen Cert.KernelIdeal.Fr
open Idealize.ShloMosaic Idealize.ShloMosaic.TcCoe Idealize.SL.Sem Idealize.ShloMosaic.StableHlo

variable {F : FTy → Type} [FloatOps F]
variable (m : (ℓ : Loc nD τ sig) → Buf (Elt F) ℓ)

/-- The input weights, gate beside gate. -/
theorem V_main_v0 (c : Dev nD) :
    (V m c main_v0 : S128x512.Idx → Elt F .f32) = concatenate S128x512 1 [⟨S128x128, m ((c : Thread nD τ).loc main_arg2)⟩, ⟨S128x128, m ((c : Thread nD τ).loc main_arg5)⟩, ⟨S128x128, m ((c : Thread nD τ).loc main_arg8)⟩, ⟨S128x128, m ((c : Thread nD τ).loc main_arg11)⟩] concatenates_S128x128_S128x128_S128x128_S128x128_S128x512_d1 := by
  dsimp only [V, hostOps0]; after_results; rfl

/-- The recurrent weights, gate beside gate. -/
theorem V_main_v1 (c : Dev nD) :
    (V m c main_v1 : S128x512.Idx → Elt F .f32) = concatenate S128x512 1 [⟨S128x128, m ((c : Thread nD τ).loc main_arg3)⟩, ⟨S128x128, m ((c : Thread nD τ).loc main_arg6)⟩, ⟨S128x128, m ((c : Thread nD τ).loc main_arg9)⟩, ⟨S128x128, m ((c : Thread nD τ).loc main_arg12)⟩] concatenates_S128x128_S128x128_S128x128_S128x128_S128x512_d1 := by
  dsimp only [V, hostOps0]; after_results; rfl

/-- The biases, gate after gate. -/
theorem V_main_v2 (c : Dev nD) :
    (V m c main_v2 : S512.Idx → Elt F .f32) = concatenate S512 0 [⟨S128, m ((c : Thread nD τ).loc main_arg4)⟩, ⟨S128, m ((c : Thread nD τ).loc main_arg7)⟩, ⟨S128, m ((c : Thread nD τ).loc main_arg10)⟩, ⟨S128, m ((c : Thread nD τ).loc main_arg13)⟩] concatenates_S128_S128_S128_S128_S512_d0 := by
  dsimp only [V, hostOps0]; after_results; rfl

end Cert.KernelIdeal.Host

end
-- ==== Proof.RefValue.lean ====
/-
  The reference's result is the specification, entry by entry on the extended reals.

  The reference slices the pair of states into h₀ (plane 0) and c₀ (plane 1), lays the four gates' weights side by
  side into W, U : [128, 512] and their biases end to end into b : [512], forms the pre-activations x · W + h₀ · U + b,
  cuts them into four column blocks of width 128 (input, forget, output, candidate), applies the logistic function
  (spelled 1 / (1 + e^(−x))) to the first three and tanh to the fourth, forms the new cell state
  c = σ(f) · c₀ + σ(i) · tanh(g) and the new hidden state h = σ(o) · tanh(c), and stacks h on c. Read at an entry,
  stage by stage, that is the specification's `gate`, `cell`, `hidden` and `G`. The three concatenations W, U, b
  stay closed: both sides name them.
-/
import proofs.«128606_j72954314489889_1_alg».proof.Proof.Gen.ReferenceIdeal.Read
import proofs.«128606_j72954314489889_1_alg».proof.Proof.Spec
import proofs.«128606_j72954314489889_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.RefVal

open Cert.ReferenceIdeal Cert.ReferenceIdeal.Gen Idealize.ShloMosaic Idealize.ShloMosaic.ValueIdx

/-! ## The constant one and the spelled logistic function -/

/-- The bit pattern 0x3F800000 is the number one. -/
theorem one_bits : Ideal.ofBits .f32 0x3F800000#32 = 1 := by
  simp [Ideal.ofBits, Ideal.ieee, -EReal.coe_mul]; norm_num

/-- One divided by one plus the exponential of the negation is the logistic function. -/
theorem sigmoid_spelled (g : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  simp only [Ideal.hostDivf_def, Ideal.addf_def, Ideal.hostUnary_exp_def, Ideal.hostNegf_def, Ideal.negf_def, Ideal.ofBits_def, one_bits]
  rfl

/-! ## The index maps of the layout operations, on coordinates -/

theorem lidx7 (r : Fin 131072) (n : Fin 512) (k : Fin 128) : Read.lidx_main_v7 (ix2 r n) k = ix2 r k := by
  funext a; match a with | ⟨0, _⟩ => rfl | ⟨1, _⟩ => rfl

theorem ridx7 (r : Fin 131072) (n : Fin 512) (k : Fin 128) : Read.ridx_main_v7 (ix2 r n) k = ix2 k n := by
  funext a; match a with | ⟨0, _⟩ => rfl | ⟨1, _⟩ => rfl

theorem lidx8 (r : Fin 131072) (n : Fin 512) (k : Fin 128) : Read.lidx_main_v8 (ix2 r n) k = ix2 r k := by
  funext a; match a with | ⟨0, _⟩ => rfl | ⟨1, _⟩ => rfl

theorem ridx8 (r : Fin 131072) (n : Fin 512) (k : Fin 128) : Read.ridx_main_v8 (ix2 r n) k = ix2 k n := by
  funext a; match a with | ⟨0, _⟩ => rfl | ⟨1, _⟩ => rfl

/-- Plane 0 of the pair of states, as a matrix: its entry (r, k) is the pair's entry (0, r, k). -/
theorem idx_h0 (r : Fin 131072) (k : Fin 128) : Read.idx_main_v0 (Read.idx_main_v1 (ix2 r k)) = ix3 (0 : Fin 2) r k := by
  have hr := r.isLt; have hk := k.isLt
  funext a; match a with
  | ⟨0, _⟩ => exact Fin.ext rfl
  | ⟨1, _⟩ => exact Fin.ext (by show (r.val * 128 + k.val) / 128 % 131072 = r.val; omega)
  | ⟨2, _⟩ => exact Fin.ext (by show (r.val * 128 + k.val) % 128 = k.val; omega)

/-- Plane 1 of the pair of states, as a matrix: its entry (r, k) is the pair's entry (1, r, k). -/
theorem idx_c0 (r : Fin 131072) (k : Fin 128) : Read.idx_main_v2 (Read.idx_main_v3 (ix2 r k)) = ix3 (1 : Fin 2) r k := by
  have hr := r.isLt; have hk := k.isLt
  funext a; match a with
  | ⟨0, _⟩ => exact Fin.ext rfl
  | ⟨1, _⟩ => exact Fin.ext (by show (r.val * 128 + k.val) / 128 % 131072 = r.val; omega)
  | ⟨2, _⟩ => exact Fin.ext (by show (r.val * 128 + k.val) % 128 = k.val; omega)

/-- The bias, broadcast down the rows: the entry (r, n) reads b at n. -/
theorem idx_bias (r : Fin 131072) (n : Fin 512) : Read.idx_main_v10 (Read.idx_main_v11 (ix2 r n)) = ix1 n := by
  funext a; match a with | ⟨0, _⟩ => rfl

/-- The four column blocks: block g at column j is column 128 g + j. -/
theorem idx_blk0 (r : Fin 131072) (j : Fin 128) : Read.idx_main_v13 (ix2 r j) = ix2 r (Cert.Spec.col 0 j) := by
  funext a; match a with
  | ⟨0, _⟩ => rfl
  | ⟨1, _⟩ => exact Fin.ext (by show j.val = 128 * 0 + j.val; omega)
theorem idx_blk1 (r : Fin 131072) (j : Fin 128) : Read.idx_main_v14 (ix2 r j) = ix2 r (Cert.Spec.col 1 j) := by
  funext a; match a with
  | ⟨0, _⟩ => rfl
  | ⟨1, _⟩ => exact Fin.ext (by show 128 + j.val = 128 * 1 + j.val; omega)
theorem idx_blk2 (r : Fin 131072) (j : Fin 128) : Read.idx_main_v15 (ix2 r j) = ix2 r (Cert.Spec.col 2 j) := by
  funext a; match a with
  | ⟨0, _⟩ => rfl
  | ⟨1, _⟩ => exact Fin.ext (by show 256 + j.val = 128 * 2 + j.val; omega)
theorem idx_blk3 (r : Fin 131072) (j : Fin 128) : Read.idx_main_v16 (ix2 r j) = ix2 r (Cert.Spec.col 3 j) := by
  funext a; match a with
  | ⟨0, _⟩ => rfl
  | ⟨1, _⟩ => exact Fin.ext (by show 384 + j.val = 128 * 3 + j.val; omega)

/-- A stacked plane's entry (0, r, j) is the matrix's entry (r, j). -/
theorem idx_plane41 (r : Fin 131072) (j : Fin 128) : Read.idx_main_v41 (ix3 (0 : Fin 1) r j) = ix2 r j := by
  funext a; match a with | ⟨0, _⟩ => rfl | ⟨1, _⟩ => rfl
theorem idx_plane42 (r : Fin 131072) (j : Fin 128) : Read.idx_main_v42 (ix3 (0 : Fin 1) r j) = ix2 r j := by
  funext a; match a with | ⟨0, _⟩ => rfl | ⟨1, _⟩ => rfl

/-! ## The stages -/

section
variable (x0 : FVec Ideal S131072x128 .f32) (x1 : FVec Ideal S2x131072x128 .f32) (x2 x3 : FVec Ideal S128x128 .f32)
  (x4 : FVec Ideal S128 .f32) (x5 x6 : FVec Ideal S128x128 .f32) (x7 : FVec Ideal S128 .f32) (x8 x9 : FVec Ideal S128x128 .f32)
  (x10 : FVec Ideal S128 .f32) (x11 x12 : FVec Ideal S128x128 .f32) (x13 : FVec Ideal S128 .f32)

/-- The previous hidden state h₀ is plane 0 of the pair. -/
theorem h0_apply (r : Fin 131072) (k : Fin 128) : Read.val_main_v1 (F := Ideal) x1 (ix2 r k) = x1 (ix3 (0 : Fin 2) r k) := by
  rw [Read.val_main_v1_apply, Read.val_main_v0_apply, idx_h0]

/-- The previous cell state c₀ is plane 1 of the pair. -/
theorem c0_apply (r : Fin 131072) (k : Fin 128) : Read.val_main_v3 (F := Ideal) x1 (ix2 r k) = x1 (ix3 (1 : Fin 2) r k) := by
  rw [Read.val_main_v3_apply, Read.val_main_v2_apply, idx_c0]

/-- The pre-activations x · W + h₀ · U + b are the specification's `gate`. -/
theorem gate_eq (r : Fin 131072) (n : Fin 512) :
    Read.val_main_v12 (F := Ideal) x0 x1 x2 x3 x4 x5 x6 x7 x8 x9 x10 x11 x12 x13 (ix2 r n) = Cert.Spec.gate x0 x1 (Read.val_main_v4 (F := Ideal) x2 x5 x8 x11) (Read.val_main_v5 (F := Ideal) x3 x6 x9 x12) (Read.val_main_v6 (F := Ideal) x4 x7 x10 x13) r n := by
  rw [Read.val_main_v12_apply, Read.val_main_v9_apply, Read.val_main_v7_apply, Read.val_main_v8_apply,
    Read.val_main_v11_apply, Read.val_main_v10_apply, idx_bias]
  simp only [Ideal.addf_def, lidx7, ridx7, lidx8, ridx8, h0_apply]
  rfl

/-- The four column blocks of the pre-activations. -/
theorem blk0_eq (r : Fin 131072) (j : Fin 128) :
    Read.val_main_v13 (F := Ideal) x0 x1 x2 x3 x4 x5 x6 x7 x8 x9 x10 x11 x12 x13 (ix2 r j) = Cert.Spec.gate x0 x1 (Read.val_main_v4 (F := Ideal) x2 x5 x8 x11) (Read.val_main_v5 (F := Ideal) x3 x6 x9 x12) (Read.val_main_v6 (F := Ideal) x4 x7 x10 x13) r (Cert.Spec.col 0 j) := by
  rw [Read.val_main_v13_apply, idx_blk0, gate_eq]
theorem blk1_eq (r : Fin 131072) (j : Fin 128) :
    Read.val_main_v14 (F := Ideal) x0 x1 x2 x3 x4 x5 x6 x7 x8 x9 x10 x11 x12 x13 (ix2 r j) = Cert.Spec.gate x0 x1 (Read.val_main_v4 (F := Ideal) x2 x5 x8 x11) (Read.val_main_v5 (F := Ideal) x3 x6 x9 x12) (Read.val_main_v6 (F := Ideal) x4 x7 x10 x13) r (Cert.Spec.col 1 j) := by
  rw [Read.val_main_v14_apply, idx_blk1, gate_eq]
theorem blk2_eq (r : Fin 131072) (j : Fin 128) :
    Read.val_main_v15 (F := Ideal) x0 x1 x2 x3 x4 x5 x6 x7 x8 x9 x10 x11 x12 x13 (ix2 r j) = Cert.Spec.gate x0 x1 (Read.val_main_v4 (F := Ideal) x2 x5 x8 x11) (Read.val_main_v5 (F := Ideal) x3 x6 x9 x12) (Read.val_main_v6 (F := Ideal) x4 x7 x10 x13) r (Cert.Spec.col 2 j) := by
  rw [Read.val_main_v15_apply, idx_blk2, gate_eq]
theorem blk3_eq (r : Fin 131072) (j : Fin 128) :
    Read.val_main_v16 (F := Ideal) x0 x1 x2 x3 x4 x5 x6 x7 x8 x9 x10 x11 x12 x13 (ix2 r j) = Cert.Spec.gate x0 x1 (Read.val_main_v4 (F := Ideal) x2 x5 x8 x11) (Read.val_main_v5 (F := Ideal) x3 x6 x9 x12) (Read.val_main_v6 (F := Ideal) x4 x7 x10 x13) r (Cert.Spec.col 3 j) := by
  rw [Read.val_main_v16_apply, idx_blk3, gate_eq]

/-- The input gate: the logistic function of block 0. -/
theorem sigI_eq (r : Fin 131072) (j : Fin 128) :
    Read.val_main_v22 (F := Ideal) x0 x1 x2 x3 x4 x5 x6 x7 x8 x9 x10 x11 x12 x13 (ix2 r j) = Ideal.logistic (Cert.Spec.gate x0 x1 (Read.val_main_v4 (F := Ideal) x2 x5 x8 x11) (Read.val_main_v5 (F := Ideal) x3 x6 x9 x12) (Read.val_main_v6 (F := Ideal) x4 x7 x10 x13) r (Cert.Spec.col 0 j)) := by
  rw [Read.val_main_v22_apply, Read.val_main_v21_apply, Read.val_main_cst_0_apply, Read.val_main_v20_apply,
    Read.val_main_v19_apply, Read.val_main_cst_apply, Read.val_main_v18_apply, Read.val_main_v17_apply, blk0_eq]
  exact sigmoid_spelled _

/-- The forget gate: the logistic function of block 1. -/
theorem sigF_eq (r : Fin 131072) (j : Fin 128) :
    Read.val_main_v28 (F := Ideal) x0 x1 x2 x3 x4 x5 x6 x7 x8 x9 x10 x11 x12 x13 (ix2 r j) = Ideal.logistic (Cert.Spec.gate x0 x1 (Read.val_main_v4 (F := Ideal) x2 x5 x8 x11) (Read.val_main_v5 (F := Ideal) x3 x6 x9 x12) (Read.val_main_v6 (F := Ideal) x4 x7 x10 x13) r (Cert.Spec.col 1 j)) := by
  rw [Read.val_main_v28_apply, Read.val_main_v27_apply, Read.val_main_cst_2_apply, Read.val_main_v26_apply,
    Read.val_main_v25_apply, Read.val_main_cst_1_apply, Read.val_main_v24_apply, Read.val_main_v23_apply, blk1_eq]
  exact sigmoid_spelled _

/-- The output gate: the logistic function of block 2. -/
theorem sigO_eq (r : Fin 131072) (j : Fin 128) :
    Read.val_main_v34 (F := Ideal) x0 x1 x2 x3 x4 x5 x6 x7 x8 x9 x10 x11 x12 x13 (ix2 r j) = Ideal.logistic (Cert.Spec.gate x0 x1 (Read.val_main_v4 (F := Ideal) x2 x5 x8 x11) (Read.val_main_v5 (F := Ideal) x3 x6 x9 x12) (Read.val_main_v6 (F := Ideal) x4 x7 x10 x13) r (Cert.Spec.col 2 j)) := by
  rw [Read.val_main_v34_apply, Read.val_main_v33_apply, Read.val_main_cst_4_apply, Read.val_main_v32_apply,
    Read.val_main_v31_apply, Read.val_main_cst_3_apply, Read.val_main_v30_apply, Read.val_main_v29_apply, blk2_eq]
  exact sigmoid_spelled _

/-- The new cell state σ(f) · c₀ + σ(i) · tanh(g) is the specification's `cell`. -/
theorem cell_eq (r : Fin 131072) (j : Fin 128) :
    Read.val_main_v38 (F := Ideal) x0 x1 x2 x3 x4 x5 x6 x7 x8 x9 x10 x11 x12 x13 (ix2 r j) = Cert.Spec.cell x0 x1 (Read.val_main_v4 (F := Ideal) x2 x5 x8 x11) (Read.val_main_v5 (F := Ideal) x3 x6 x9 x12) (Read.val_main_v6 (F := Ideal) x4 x7 x10 x13) r j := by
  rw [Read.val_main_v38_apply, Read.val_main_v36_apply, Read.val_main_v37_apply, sigF_eq, c0_apply, sigI_eq,
    Read.val_main_v35_apply, blk3_eq]
  simp only [Ideal.addf_def, Ideal.mulf_def, Ideal.hostUnary_tanh_def]
  rfl

/-- The new hidden state σ(o) · tanh(c) is the specification's `hidden`. -/
theorem hidden_eq (r : Fin 131072) (j : Fin 128) :
    Read.val_main_v40 (F := Ideal) x0 x1 x2 x3 x4 x5 x6 x7 x8 x9 x10 x11 x12 x13 (ix2 r j) = Cert.Spec.hidden x0 x1 (Read.val_main_v4 (F := Ideal) x2 x5 x8 x11) (Read.val_main_v5 (F := Ideal) x3 x6 x9 x12) (Read.val_main_v6 (F := Ideal) x4 x7 x10 x13) r j := by
  rw [Read.val_main_v40_apply, sigO_eq, Read.val_main_v39_apply, cell_eq]
  simp only [Ideal.mulf_def, Ideal.hostUnary_tanh_def]
  rfl

/-- The reference's result, the new hidden state stacked on the new cell state, is the specification `G` of the
    inputs, the pair of states, and the weights and biases laid side by side. -/
theorem result_eq :
    Read.val_main_v43 (F := Ideal) x0 x1 x2 x3 x4 x5 x6 x7 x8 x9 x10 x11 x12 x13 = Cert.Spec.G x0 x1 (Read.val_main_v4 (F := Ideal) x2 x5 x8 x11) (Read.val_main_v5 (F := Ideal) x3 x6 x9 x12) (Read.val_main_v6 (F := Ideal) x4 x7 x10 x13) := by
  funext i
  obtain ⟨s, r, j, rfl⟩ : ∃ (s : Fin 2) (r : Fin 131072) (j : Fin 128), i = ix3 s r j := ⟨i 0, i 1, i 2, eq_ix3 i⟩
  unfold Read.val_main_v43
  match s with
  | ⟨0, _⟩ =>
    refine (concatenate_pair_apply_left (t := S2x131072x128) (s₁ := S1x131072x128) (s₂ := S1x131072x128) (0 : Fin 3) _ _ concatenates_S1x131072x128_S1x131072x128_S2x131072x128_d0
      (ix3 (⟨0, by omega⟩ : Fin 2) r j) rfl (ix3 (0 : Fin 1) r j)
      (fun b => match b with | ⟨0, _⟩ => rfl | ⟨1, _⟩ => rfl | ⟨2, _⟩ => rfl)).trans ?_
    rw [Read.val_main_v41_apply, idx_plane41, hidden_eq]
    exact (Cert.Spec.G_hidden _ _ _ _ _ r j).symm
  | ⟨1, _⟩ =>
    refine (concatenate_pair_apply_right (t := S2x131072x128) (s₁ := S1x131072x128) (s₂ := S1x131072x128) (0 : Fin 3) _ _ concatenates_S1x131072x128_S1x131072x128_S2x131072x128_d0
      (ix3 (⟨1, by omega⟩ : Fin 2) r j) rfl rfl (ix3 (0 : Fin 1) r j)
      (fun b => match b with | ⟨0, _⟩ => fun h => absurd rfl h | ⟨1, _⟩ => fun _ => rfl | ⟨2, _⟩ => fun _ => rfl) rfl).trans ?_
    rw [Read.val_main_v42_apply, idx_plane42, cell_eq]
    exact (Cert.Spec.G_cell _ _ _ _ _ r j).symm

end

end Cert.ReferenceIdeal.RefVal

end
-- ==== Proof.lean ====
/-
  One step of an LSTM cell over 131072 rows: the pipelined kernel against the plain array program.

  Both programs lay the four gates' weights side by side (W, U : [128, 512]) and their biases end to end (b : [512]),
  form the pre-activations x · W + h₀ · U + b, cut them into the input, forget, output and candidate bands, and set
      c = σ(f) · c₀ + σ(i) · tanh(g),   h = σ(o) · tanh(c),
  returning h stacked on c. The kernel does it 2048 rows at a time over a grid of 64 points, with the matrix products
  taken into zero accumulators after a narrowing of their operands, and the logistic function as one operation; the
  reference does it on the whole arrays, the logistic function spelled 1 / (1 + e^(−x)). On the extended reals the
  narrowing is the identity, a product into a zero accumulator is the product, the logistic function is its spelling,
  and a row's result depends on that row only: so both results are the one function `Cert.Spec.G` of the arguments
  (the kernel's: Proof/KIPay, KIBlock, KIValue over the frame of Proof/KIData, KIFrame; the reference's:
  Proof/RefValue), and the concatenations are the same arrays on both sides.

  The frames: the kernel's program at both readings runs its host concatenations and its region to the end, the region
  writing only the result array (Proof/KFrame, Proof/KIFrame); the reference's frame is its run with the result
  dropped. The idealization rewrote nothing, so there is nothing to preserve.
-/
import proofs.«128606_j72954314489889_1_alg».proof.Defs
import proofs.«128606_j72954314489889_1_alg».proof.Proof.Gen.Kernel
import proofs.«128606_j72954314489889_1_alg».proof.Proof.Gen.KernelIdeal
import proofs.«128606_j72954314489889_1_alg».proof.Proof.Gen.ReferenceIdeal
import proofs.«128606_j72954314489889_1_alg».proof.Proof.Gen.Pre_finite_inputs
import proofs.«128606_j72954314489889_1_alg».proof.Proof.Gen.ReferenceIdeal.Run
import proofs.«128606_j72954314489889_1_alg».proof.Proof.Gen.ReferenceIdeal.Read
import proofs.«128606_j72954314489889_1_alg».proof.Proof.KFrame
import proofs.«128606_j72954314489889_1_alg».proof.Proof.KIFrame
import proofs.«128606_j72954314489889_1_alg».proof.Proof.KIValue
import proofs.«128606_j72954314489889_1_alg».proof.Proof.KIHost
import proofs.«128606_j72954314489889_1_alg».proof.Proof.RefValue

noncomputable section

namespace Cert.Proof

open Idealize.ShloMosaic Idealize.ShloMosaic.TcCoe Idealize.SL.Sem

/-- The word-level kernel program runs to the end and leaves its arguments as they were. -/
theorem frame_k : Cert.frame_Kernel := fun m ρ _ => Cert.Kernel.Fr.frame (F := Bits) m ρ

/-- So does the program read on the extended reals. -/
theorem frame_ki : Cert.frame_KernelIdeal := fun m ρ _ => Cert.KernelIdeal.Fr.frame (F := Ideal) m ρ

/-- The reference's frame is its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the specification of those arguments: the
    kernel's result array is it block by block, the reference's stage by stage, and the three concatenations the
    specification takes are the same arrays on both sides. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v43_eq, Cert.ReferenceIdeal.RefVal.result_eq,
    h0, h1, h2, h3, h4, h5, h6, h7, h8, h9, h10, h11, h12, h13]
  have e0 := Cert.KernelIdeal.Host.V_main_v0 m c
  have e1 := Cert.KernelIdeal.Host.V_main_v1 m c
  have e2 := Cert.KernelIdeal.Host.V_main_v2 m c
  show _ = Cert.Spec.G _ _ (Cert.KernelIdeal.Fr.V m c Cert.KernelIdeal.main_v0) (Cert.KernelIdeal.Fr.V m c Cert.KernelIdeal.main_v1)
    (Cert.KernelIdeal.Fr.V m c Cert.KernelIdeal.main_v2)
  rw [e0, e1, e2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
